-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S50 : Shape := ⟨1, ![50]⟩
abbrev S128x50 : Shape := ⟨2, ![128, 50]⟩
abbrev S128 : Shape := ⟨1, ![128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S50 : S_.BroadcastsInDim S50 (![] : Fin 0 → Fin S50.rank)
  reducesTo_S50_S_d0 : S50.ReducesTo [0] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x3 .f32) (main_arg1 : IVec S2x1600000 32) (main_arg2 : FVec F S50 .f32) (main_arg3 : FVec F S50 .f32) (main_arg4 : FVec F S128x50 .f32) (main_arg5 : FVec F S128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S50 .f32 := Host.absf main_arg2
  let main_cst_0 : FVec F S_ .f32 := constant S_ .f32 0x7F800000#32
  let main_v5 : FVec F S50 .f32 := broadcastInDim S50 ![] bcast_S_S50 main_cst_0
  let main_v6 : IVec S50 1 := cmpf .olt main_v4 main_v5
  let main_c_1 : IVec S_ 1 := constantI S_ 1 1#1
  let main_v7 : IVec S_ 1 := (fun x v => Host.reduce IntOp.andi x v reducesTo_S50_S_d0 h_S_) main_v6 main_c_1
  let main_v8 : IVec S_ 1 := andi main_v3 main_v7
  let main_v9 : FVec F S50 .f32 := Host.absf main_arg3
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg5 main_v13 main_v16
-- ==== Kernel.lean ====
abbrev S100000x3 : Shape := ⟨2, ![100000, 3]⟩
abbrev S2x1600000 : Shape := ⟨2, ![2, 1600000]⟩
abbrev S50 : Shape := ⟨1, ![50]⟩
abbrev S128x50 : Shape := ⟨2, ![128, 50]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1x50 : Shape := ⟨2, ![1, 50]⟩
abbrev S50x128 : Shape := ⟨2, ![50, 128]⟩
abbrev S1x128 : Shape := ⟨2, ![1, 128]⟩
abbrev S1600000x128 : Shape := ⟨2, ![1600000, 128]⟩
abbrev S16000x3 : Shape := ⟨2, ![16000, 3]⟩
abbrev S16000x1 : Shape := ⟨2, ![16000, 1]⟩
abbrev S16000x128 : Shape := ⟨2, ![16000, 128]⟩
abbrev S16000 : Shape := ⟨1, ![16000]⟩
abbrev S16000x50 : Shape := ⟨2, ![16000, 50]⟩

abbrev nBuf : Space → Nat
  | .hbm => 37
  | .vmem => 12
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S50, .f32⟩
  | .hbm, ⟨3, _⟩ => ⟨S50, .f32⟩
  | .hbm, ⟨4, _⟩ => ⟨S128x50, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x3, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x3, .f32⟩
  | .hbm, ⟨28, _⟩ => ⟨S1600000x3, .f32⟩
  | .hbm, ⟨29, _⟩ => ⟨S1x50, .f32⟩
  | .hbm, ⟨30, _⟩ => ⟨S1x50, .f32⟩
  | .hbm, ⟨31, _⟩ => ⟨S50x128, .f32⟩
  | .hbm, ⟨32, _⟩ => ⟨S1x128, .f32⟩
  | .hbm, ⟨33, _⟩ => ⟨S1600000x1, .f32⟩
  | .hbm, ⟨34, _⟩ => ⟨S1600000x128, .f32⟩
  | .hbm, ⟨35, _⟩ => ⟨S1600000x3, .f32⟩
  | .hbm, ⟨36, _⟩ => ⟨S1600000, .f32⟩
  | .local _ .vmem, ⟨0, _⟩ => ⟨S16000x3, .f32⟩
  | .local _ .vmem, ⟨1, _⟩ => ⟨S16000x3, .f32⟩
  | .local _ .vmem, ⟨2, _⟩ => ⟨S1x50, .f32⟩
  | .local _ .vmem, ⟨3, _⟩ => ⟨S1x50, .f32⟩
  | .local _ .vmem, ⟨4, _⟩ => ⟨S50x128, .f32⟩
  | .local _ .vmem, ⟨5, _⟩ => ⟨S1x128, .f32⟩
  | .local _ .vmem, ⟨6, _⟩ => ⟨S16000x1, .f32⟩
  | .local _ .vmem, ⟨7, _⟩ => ⟨S16000x1, .f32⟩
  | .local _ .vmem, ⟨8, _⟩ => ⟨S16000x128, .f32⟩
  | .local _ .vmem, ⟨9, _⟩ => ⟨S16000x128, .f32⟩
  | .local _ .vmem, ⟨10, _⟩ => ⟨S16000x3, .f32⟩
  | .local _ .vmem, ⟨11, _⟩ => ⟨S16000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c : Ref sig .tc := ⟨.hbm, 10, rfl⟩
abbrev main_call0_v4 : Ref sig .tc := ⟨.hbm, 11, rfl⟩
abbrev main_call0_v5 : Ref sig .tc := ⟨.hbm, 12, rfl⟩
abbrev main_call0_c_0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_1 : Ref sig .tc := ⟨.hbm, 19, rfl⟩
abbrev main_call0_v11 : Ref sig .tc := ⟨.hbm, 20, rfl⟩
abbrev main_call0_v12 : Ref sig .tc := ⟨.hbm, 21, rfl⟩
abbrev main_call0_c_2 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23_0 : Ref sig .tc := ⟨.hbm, 33, rfl⟩
abbrev main_v0_2 : Ref sig .tc := ⟨.hbm, 34, rfl⟩
abbrev main_v0_3 : Ref sig .tc := ⟨.hbm, 35, rfl⟩
abbrev main_v0_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S50_S1x50 : S50.ShapeCasts S1x50
  transposes_S128x50_S50x128_1_0 : S128x50.Transposes [1, 0] S50x128
  shapeCasts_S128_S1x128 : S128.ShapeCasts S1x128
  shapeCasts_S1600000x1_S1600000 : S1600000x1.ShapeCasts S1600000
  inb_S16000x3_S16000x3_0_0 : ∀ a, (![0, 0] : Fin 2 → Nat) a + S16000x3.size a ≤ S16000x3.size a
  h_S16000x3 : 0 < S16000x3.numel
  shapeCasts_S16000x3_S16000x3 : S16000x3.ShapeCasts S16000x3
  reduces_S16000x3_S16000 : S16000x3.Reduces [1] S16000
  shapeCasts_S16000_S16000x1 : S16000.ShapeCasts S16000x1
  natLt_1_32 : 1 < 32
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S16000x1_S16000x50 : S16000x1.Broadcasts S16000x50
  broadcasts_S1x50_S16000x50 : S1x50.Broadcasts S16000x50
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  broadcasts_S16000x1_S16000x3 : S16000x1.Broadcasts S16000x3
  inb_S16000x1_S16000x1_0_0 : ∀ a, (![0, 0] : Fin 2 → Nat) a + S16000x1.size a ≤ S16000x1.size a
  h_S16000x1 : 0 < S16000x1.numel
  inb_S16000x128_S16000x128_0_0 : ∀ a, (![0, 0] : Fin 2 → Nat) a + S16000x128.size a ≤ S16000x128.size a
  h_S16000x128 : 0 < S16000x128.numel
  gather_S100000x3_S1600000x1_S1600000x3_1_0_n_n_0_1_13_wf : GatherDims.WF S100000x3 S1600000x1 S1600000x3 [1] [0] [] [0] [] 1 ![1, 3]
  dot_S16000x50_S50x128_S16000x128_1_0_0_1_n_n_wf : DotDims.WF S16000x50 S50x128 S16000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x3.size a ≤ S1600000x3.size a
  hwx0_0 : ∀ i : grid0.Coords, EltTy.bits .f32 = 32 ∨ (Rect.block (s := S1600000x3) S16000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x50.size a ≤ S1x50.size a
  hwx0_1 : ∀ i : grid0.Coords, EltTy.bits .f32 = 32 ∨ (Rect.block (s := S1x50) S1x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x128.size a ≤ S50x128.size a
  hwx0_3 : ∀ i : grid0.Coords, EltTy.bits .f32 = 32 ∨ (Rect.block (s := S50x128) S50x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x1.size a ≤ S1600000x1.size a
  hwx0_5 : ∀ i : grid0.Coords, EltTy.bits .f32 = 32 ∨ (Rect.block (s := S1600000x1) S16000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16000x128.size a ≤ S1600000x128.size a
  hwx0_6 : ∀ i : grid0.Coords, EltTy.bits .f32 = 32 ∨ (Rect.block (s := S1600000x128) S16000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x3.size a ≤ S1600000x3.size a
  hwx0_7 : ∀ i : grid0.Coords, EltTy.bits .f32 = 32 ∨ (Rect.block (s := S1600000x3) S16000x3.size (cc0_transform_7 i) (hinb0_7 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S16000x50_S50x128_S16000x128_1_0_0_1_n_n : DotDims S16000x50 S50x128 S16000x128 where
  lhsContracting := [1]
  rhsContracting := [0]
  lhsNonContracting := [0]
  rhsNonContracting := [1]
  lhsBatch := []
  rhsBatch := []
  wf := dot_S16000x50_S50x128_S16000x128_1_0_0_1_n_n_wf

abbrev win0_0 : Pipeline.Window sig grid0 :=
  Pipeline.Window.ofSpec (Memref.whole main_call0_v18) S16000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S1x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S50x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v23_0) S16000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S16000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S16000x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S50 : Shape := ⟨1, ![50]⟩
abbrev S128x50 : Shape := ⟨2, ![128, 50]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1x50 : Shape := ⟨2, ![1, 50]⟩
abbrev S1600000x50 : Shape := ⟨2, ![1600000, 50]⟩
abbrev S50x128 : Shape := ⟨2, ![50, 128]⟩
abbrev S1600000x128 : Shape := ⟨2, ![1600000, 128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S50, .f32⟩
  | .hbm, ⟨3, _⟩ => ⟨S50, .f32⟩
  | .hbm, ⟨4, _⟩ => ⟨S128x50, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x3, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x3, .f32⟩
  | .hbm, ⟨28, _⟩ => ⟨S1600000x3, .f32⟩
  | .hbm, ⟨29, _⟩ => ⟨S1600000x3, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S1600000x1, .f32⟩
  | .hbm, ⟨34, _⟩ => ⟨S_, .f32⟩
  | .hbm, ⟨35, _⟩ => ⟨S1600000x1, .f32⟩
  | .hbm, ⟨36, _⟩ => ⟨S1600000x1, .f32⟩
  | .hbm, ⟨37, _⟩ => ⟨S_, .f32⟩
  | .hbm, ⟨38, _⟩ => ⟨S1600000x1, .f32⟩
  | .hbm, ⟨39, _⟩ => ⟨S1600000x1, .f32⟩
  | .hbm, ⟨40, _⟩ => ⟨S1600000x1, .f32⟩
  | .hbm, ⟨41, _⟩ => ⟨S_, .f32⟩
  | .hbm, ⟨42, _⟩ => ⟨S1600000x1, .f32⟩
  | .hbm, ⟨43, _⟩ => ⟨S1600000x1, .f32⟩
  | .hbm, ⟨44, _⟩ => ⟨S_, .f32⟩
  | .hbm, ⟨45, _⟩ => ⟨S1600000x1, .f32⟩
  | .hbm, ⟨46, _⟩ => ⟨S1600000x1, .f32⟩
  | .hbm, ⟨47, _⟩ => ⟨S_, .f32⟩
  | .hbm, ⟨48, _⟩ => ⟨S1600000x1, .f32⟩
  | .hbm, ⟨49, _⟩ => ⟨S1600000x1, .i1⟩
  | .hbm, ⟨50, _⟩ => ⟨S1600000x1, .f32⟩
  | .hbm, ⟨51, _⟩ => ⟨S1600000x1, .f32⟩
  | .hbm, ⟨52, _⟩ => ⟨S50, .f32⟩
  | .hbm, ⟨53, _⟩ => ⟨S_, .f32⟩
  | .hbm, ⟨54, _⟩ => ⟨S1600000x1, .f32⟩
  | .hbm, ⟨55, _⟩ => ⟨S1600000x1, .f32⟩
  | .hbm, ⟨56, _⟩ => ⟨S_, .f32⟩
  | .hbm, ⟨57, _⟩ => ⟨S1600000x1, .f32⟩
  | .hbm, ⟨58, _⟩ => ⟨S1600000x1, .f32⟩
  | .hbm, ⟨59, _⟩ => ⟨S1600000x1, .f32⟩
  | .hbm, ⟨60, _⟩ => ⟨S1x50, .f32⟩
  | .hbm, ⟨61, _⟩ => ⟨S1600000x50, .f32⟩
  | .hbm, ⟨62, _⟩ => ⟨S1600000x50, .f32⟩
  | .hbm, ⟨63, _⟩ => ⟨S1600000x50, .f32⟩
  | .hbm, ⟨64, _⟩ => ⟨S1600000x50, .f32⟩
  | .hbm, ⟨65, _⟩ => ⟨S1x50, .f32⟩
  | .hbm, ⟨66, _⟩ => ⟨S1600000x50, .f32⟩
  | .hbm, ⟨67, _⟩ => ⟨S1600000x50, .f32⟩
  | .hbm, ⟨68, _⟩ => ⟨S1600000x50, .f32⟩
  | .hbm, ⟨69, _⟩ => ⟨S1600000x50, .f32⟩
  | .hbm, ⟨70, _⟩ => ⟨S1600000x50, .f32⟩
  | .hbm, ⟨71, _⟩ => ⟨S1600000x3, .f32⟩
  | .hbm, ⟨72, _⟩ => ⟨S_, .f32⟩
  | .hbm, ⟨73, _⟩ => ⟨S1600000, .f32⟩
  | .hbm, ⟨74, _⟩ => ⟨S1600000x1, .f32⟩
  | .hbm, ⟨75, _⟩ => ⟨S1600000x1, .f32⟩
  | .hbm, ⟨76, _⟩ => ⟨S1600000x3, .f32⟩
  | .hbm, ⟨77, _⟩ => ⟨S1600000x3, .f32⟩
  | .hbm, ⟨78, _⟩ => ⟨S50x128, .f32⟩
  | .hbm, ⟨79, _⟩ => ⟨S1600000x128, .f32⟩
  | .hbm, ⟨80, _⟩ => ⟨S1x128, .f32⟩
  | .hbm, ⟨81, _⟩ => ⟨S1600000x128, .f32⟩
  | .hbm, ⟨82, _⟩ => ⟨S1600000x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_v0 : Ref sig .tc := ⟨.hbm, 71, rfl⟩
abbrev main_call1_cst : Ref sig .tc := ⟨.hbm, 72, rfl⟩
abbrev main_call1_v1 : Ref sig .tc := ⟨.hbm, 73, rfl⟩
abbrev main_call1_v2 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S50_S1x50_1 : S50.BroadcastsInDim S1x50 (![1] : Fin 1 → Fin S1x50.rank)
  bcast_S1600000x1_S1600000x50_0_1 : S1600000x1.BroadcastsInDim S1600000x50 (![0, 1] : Fin 2 → Fin S1600000x50.rank)
  bcast_S1x50_S1600000x50_0_1 : S1x50.BroadcastsInDim S1600000x50 (![0, 1] : Fin 2 → Fin S1600000x50.rank)
  bcast_S1600000x1_S1600000x3_0_1 : S1600000x1.BroadcastsInDim S1600000x3 (![0, 1] : Fin 2 → Fin S1600000x3.rank)
  transposes_S128x50_S50x128_1_0 : S128x50.Transposes [1, 0] S50x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  gather_S100000x3_S1600000x1_S1600000x3_1_0_n_n_0_1_13_wf : GatherDims.WF S100000x3 S1600000x1 S1600000x3 [1] [0] [] [0] [] 1 ![1, 3]
  dot_S1600000x50_S50x128_S1600000x128_1_0_0_1_n_n_wf : DotDims.WF S1600000x50 S50x128 S1600000x128 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf

class Facts : Prop extends Facts₀ where

variable [Facts]
-- ==== Proof.EdgeSpec.lean ====
/-
  The edge features as functions on the extended reals, one edge (row) at a time.

  For an edge with displacement `x : Fin 3 → EReal`:
    length      d = √(x₀² + x₁² + x₂²)
    cutoff      c(d) = ½ · (cos(d·π / 5) + 1) · [d < 5]
    decay       ε(d) = exp(1 · (0 − d))
    radial      ρ(d, μ, β) = c(d) · exp(−β · (ε(d) − μ)²)
    attribute   a_h = Σ_j ρ(d, μ_j, β_j) · W_{h j} + b_h
    direction   u_k = x_k / d
  The float literals stay as the words both programs print (π as 0x40490FDB, 5 as 0x40A00000, …): the same word on
  both sides is never evaluated, only the zero word is.

  Two spellings of the same numbers meet here. The indicator [d < 5] is read off a one-bit comparison either as an
  unsigned integer, or zero-extended to 32 bits and then read signed: a bit is 0 or 1 either way. And the exponent
  −β · (ε − μ)² is written either with a negation and the square bracketed, or as ((0 − β) · (ε − μ)) · (ε − μ):
  multiplication on the extended reals is associative and 0 − β = −β, with no finiteness needed.
-/
import Idealize.ShloMosaic.PureOps.Ideal
import Idealize.ShloMosaic.PureOps.Ideal.Laws
import Idealize.ShloMosaic.Lib.ValueIdx

noncomputable section

namespace EdgeFeat

open Idealize.ShloMosaic Idealize.ShloMosaic.ValueIdx

/-- The extended real a 32-bit float word denotes. -/
abbrev lit (w : BitVec 32) : EReal := Ideal.ofBits .f32 w

/-- The Euclidean length of a displacement. -/
def norm3 (x : Fin 3 → EReal) : EReal := Ideal.sqrt (∑ k : Fin 3, x k * x k)

/-- The indicator of `d < 5`, as the comparison bit read unsigned. -/
def below (d : EReal) : EReal := (((Ideal.cmp .olt d (lit 0x40A00000#32)).toNat : ℝ) : EReal)

/-- The cosine cutoff ½ · (cos(d·π/5) + 1) · [d < 5]. -/
def cutoff (d : EReal) : EReal :=
  lit 0x3F000000#32 * (Ideal.cos (Ideal.div (d * lit 0x40490FDB#32) (lit 0x40A00000#32)) + lit 0x3F800000#32) * below d

/-- The exponential decay exp(1 · (0 − d)). -/
def decay (d : EReal) : EReal := Ideal.exp (lit 0x3F800000#32 * (lit 0x00000000#32 - d))

/-- One radial basis value: cutoff(d) · exp(−β · (decay(d) − μ)²). -/
def radial (d mu beta : EReal) : EReal :=
  cutoff d * Ideal.exp (-beta * ((decay d - mu) * (decay d - mu)))

/-- A comparison bit zero-extended to 32 bits and read signed is the bit read unsigned. -/
theorem bit_signed_eq_unsigned (b : BitVec 1) :
    (((b.setWidth 32).toInt : ℝ) : EReal) = (((b.toNat : ℕ) : ℝ) : EReal) := by
  have h : (b.setWidth 32).toInt = ((b.toNat : ℕ) : ℤ) := by revert b; decide
  rw [h]; norm_cast

/-- The indicator with the bit widened and read signed. -/
theorem below_signed (d : EReal) :
    ((((Ideal.cmp .olt d (lit 0x40A00000#32)).setWidth 32).toInt : ℝ) : EReal) = below d :=
  bit_signed_eq_unsigned _

/-- The exponent written ((0 − β) · y) · y is −β · (y · y). -/
theorem exponent_assoc (beta y : EReal) : ((lit 0x00000000#32 - beta) * y) * y = -beta * (y * y) := by
  rw [show lit 0x00000000#32 = 0 from Ideal.ofBits_zero_f32, zero_sub, mul_assoc]

/-- The radial value with the exponent in that second spelling. -/
theorem radial_assoc (d mu beta : EReal) :
    cutoff d * Ideal.exp (((lit 0x00000000#32 - beta) * (decay d - mu)) * (decay d - mu)) = radial d mu beta := by
  unfold radial; rw [exponent_assoc]

/-! ## The four arrays, over the edge displacements `ev` (one row of three per edge) -/

/-- The length of edge `e`. -/
def edgeLen (ev : (⟨2, ![1600000, 3]⟩ : Shape).Idx → EReal) (e : Fin 1600000) : EReal :=
  norm3 fun k => ev (ix2 e k)

/-- The lengths, as a vector over the edges. -/
def lenVec (ev : (⟨2, ![1600000, 3]⟩ : Shape).Idx → EReal) : (⟨1, ![1600000]⟩ : Shape).Idx → EReal :=
  fun i => edgeLen ev (i 0)

/-- The lengths, as a one-column matrix. -/
def lenCol (ev : (⟨2, ![1600000, 3]⟩ : Shape).Idx → EReal) : (⟨2, ![1600000, 1]⟩ : Shape).Idx → EReal :=
  fun i => edgeLen ev (i 0)

/-- The attributes: the radial values of an edge through the linear layer. -/
def attrMat (ev : (⟨2, ![1600000, 3]⟩ : Shape).Idx → EReal) (means betas : (⟨1, ![50]⟩ : Shape).Idx → EReal)
    (W : (⟨2, ![128, 50]⟩ : Shape).Idx → EReal) (b : (⟨1, ![128]⟩ : Shape).Idx → EReal) :
    (⟨2, ![1600000, 128]⟩ : Shape).Idx → EReal :=
  fun i => (∑ j : Fin 50, radial (edgeLen ev (i 0)) (means (ix1 j)) (betas (ix1 j)) * W (ix2 (i 1) j)) + b (ix1 (i 1))

/-- The unit directions: each displacement over its length. -/
def unitMat (ev : (⟨2, ![1600000, 3]⟩ : Shape).Idx → EReal) : (⟨2, ![1600000, 3]⟩ : Shape).Idx → EReal :=
  fun i => Ideal.div (ev i) (edgeLen ev (i 0))

end EdgeFeat

end
-- ==== Proof.EdgeLayout.lean ====
/-
  Layout operations on a one-column matrix read at an index, and the pointwise transcendental operations read at an
  index on the extended reals: a column [a, 1] spread over b columns reads its own row; a vector [a] viewed as a column
  [a, 1], or a column viewed as a vector, keeps its row.
-/
import Idealize.ShloMosaic.PureOps.Ideal
import Idealize.ShloMosaic.Lib.ValueIdx
import Idealize.ShloMosaic.Lib.Pipeline.Value

noncomputable section

namespace EdgeFeat

open Idealize.ShloMosaic Idealize.ShloMosaic.ValueIdx

variable {α : Type}

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` cast to a vector `[a]` reads, at `p`, the column at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

variable {s : Shape} {φ : FTy}

theorem exp_apply (x : FVec Ideal s φ) (i : s.Idx) : exp x i = Ideal.exp (x i) := rfl
theorem cos_apply (x : FVec Ideal s φ) (i : s.Idx) : cos x i = Ideal.cos (x i) := rfl
theorem sqrt_apply (x : FVec Ideal s φ) (i : s.Idx) : sqrt x i = Ideal.sqrt (x i) := rfl
theorem hostExp_apply (x : FVec Ideal s φ) (i : s.Idx) : Host.exp x i = Ideal.exp (x i) := rfl
theorem hostCos_apply (x : FVec Ideal s φ) (i : s.Idx) : Host.cos x i = Ideal.cos (x i) := rfl
theorem hostSqrt_apply (x : FVec Ideal s φ) (i : s.Idx) : Host.sqrt x i = Ideal.sqrt (x i) := rfl
theorem hostDivf_apply (x y : FVec Ideal s φ) (i : s.Idx) : Host.divf x y i = Ideal.div (x i) (y i) := rfl
theorem hostNegf_apply (x : FVec Ideal s φ) (i : s.Idx) : Host.negf x i = -(x i) := rfl
theorem uitofp_apply {w : Nat} (x : IVec s w) (i : s.Idx) : (uitofp φ x : FVec Ideal s φ) i = ((((x i).toNat : ℕ) : ℝ) : EReal) := rfl
theorem sitofp_ideal_apply {w : Nat} (x : IVec s w) (i : s.Idx) : (sitofp φ x : FVec Ideal s φ) i = (((x i).toInt : ℝ) : EReal) := rfl
theorem cmpf_ideal_apply (p : CmpFPredicate) (x y : FVec Ideal s φ) (i : s.Idx) : cmpf p x y i = Ideal.cmp p (x i) (y i) := rfl
theorem scalar_ofBits_ideal (w : BitVec φ.bits) : (Scalar.ofBits φ w : Ideal φ) = Ideal.ofBits φ w := rfl

end EdgeFeat

end
-- ==== Proof.KernelRows.lean ====
/-
  The kernel body's results at one row of a block, on the extended reals: for a block `x0` of 16000 displacements the
  stored length at row `p` is the Euclidean length of that row; the stored direction is the row over its length; and the
  stored attribute row is the radial values of that length, through the linear layer `x3` (50 × 128) plus the bias `x4`.
-/
import proofs.«111235_j15607911153855_1_alg».proof.Proof.Gen.KernelIdeal.Skeleton
import proofs.«111235_j15607911153855_1_alg».proof.Proof.EdgeSpec
import proofs.«111235_j15607911153855_1_alg».proof.Proof.EdgeLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx EdgeFeat

/-- The length of row `p` of a block of displacements. -/
def rowLen (x0 : FVec Ideal S16000x3 .f32) (p : Fin 16000) : EReal := norm3 fun k => x0 (ix2 p k)

/-- The body's first cast is of a shape to itself. -/
theorem pay3_eq (x0 : FVec Ideal S16000x3 .f32) : k0_pay3 (F := Ideal) x0 = x0 := shapeCast_self _ _

/-- The sum of squares over the three lanes of row `p`. -/
theorem sumsq_apply (x0 : FVec Ideal S16000x3 .f32) (hφ : FKind.Formats .f32) (hacc : (0x00000000#32 : BitVec 32) = 0x00000000#32) (p : Fin 16000) :
    multiReduction .add [1] S16000 (mulf x0 x0) 0x00000000#32 reduces_S16000x3_S16000 hφ hacc (ix1 p)
      = ∑ k : Fin 3, x0 (ix2 p k) * x0 (ix2 p k) := by
  refine (Ideal.multiReduction_add_single (mulf x0 x0) 0x00000000#32 reduces_S16000x3_S16000 hφ hacc (ix1 p)).trans ?_
  refine Finset.sum_congr rfl fun k _ => ?_
  have e : reduces_S16000x3_S16000.lift (ix1 p) k = ix2 p k :=
    funext fun a => Fin.ext (by match a with | ⟨0, _⟩ => rfl | ⟨1, _⟩ => rfl)
  rw [e]; rfl

/-- The stored length at row `p`. -/
theorem pay4_apply (x0 : FVec Ideal S16000x3 .f32) (p : Fin 16000) (u : Fin 1) :
    k0_pay4 (F := Ideal) x0 (ix2 p u) = rowLen x0 p := by
  unfold k0_pay4
  dsimp only
  rw [pay3_eq, EdgeFeat.sqrt_apply, shapeCast_a_a1_apply, sumsq_apply]
  rfl

/-- The stored direction at row `p`, lane `k`: the displacement over the row's length. -/
theorem pay2_apply (x0 : FVec Ideal S16000x3 .f32) (p : Fin 16000) (k : Fin 3) :
    k0_pay2 (F := Ideal) (k0_pay3 x0) (k0_pay4 x0) (ix2 p k) = Ideal.div (x0 (ix2 p k)) (rowLen x0 p) := by
  unfold k0_pay2
  rw [pay3_eq, divf_apply, broadcastTo_a1_ab_apply, pay4_apply]

/-- The radial value at row `p`, centre `j`. -/
theorem pay5_apply (x0 : FVec Ideal S16000x3 .f32) (x1 x2 : FVec Ideal S1x50 .f32) (p : Fin 16000) (j : Fin 50) :
    k0_pay5 (F := Ideal) x0 x1 x2 (ix2 p j) = radial (rowLen x0 p) (x1 (ix2 (0 : Fin 1) j)) (x2 (ix2 (0 : Fin 1) j)) := by
  unfold k0_pay5
  simp only [shapeCast_self]
  simp only [mulf_apply, subf_apply, addf_apply, divf_apply, EdgeFeat.exp_apply, EdgeFeat.cos_apply, broadcastTo_a1_ab_apply, broadcastTo_1b_ab_apply,
    broadcast_apply, sitofp_ideal_apply, extui_apply, cmpf_ideal_apply, pay4_apply, scalar_ofBits_ideal]
  rw [below_signed]
  exact radial_assoc _ _ _

/-! ### The block's matrix product, read at an entry -/

theorem lhs_dot_0 (i : S16000x128.Idx) (q : dot_S16000x50_S50x128_S16000x128_1_0_0_1_n_n.contr.Idx) :
    (dot_S16000x50_S50x128_S16000x128_1_0_0_1_n_n.lhsIdx i q 0).val = (i 0).val := by
  unfold DotDims.lhsIdx
  rw [dif_neg (show ¬(0 : Fin S16000x50.rank) ∈ dot_S16000x50_S50x128_S16000x128_1_0_0_1_n_n.lhsBatch by decide), dif_pos (show (0 : Fin S16000x50.rank) ∈ dot_S16000x50_S50x128_S16000x128_1_0_0_1_n_n.lhsNonContracting by decide)]
  rfl
theorem lhs_dot_1 (i : S16000x128.Idx) (q : dot_S16000x50_S50x128_S16000x128_1_0_0_1_n_n.contr.Idx) :
    (dot_S16000x50_S50x128_S16000x128_1_0_0_1_n_n.lhsIdx i q 1).val = (q ⟨0, by decide⟩).val :=
  dot_S16000x50_S50x128_S16000x128_1_0_0_1_n_n.lhsIdx_val_of_single rfl i q
theorem rhs_dot_0 (i : S16000x128.Idx) (q : dot_S16000x50_S50x128_S16000x128_1_0_0_1_n_n.contr.Idx) :
    (dot_S16000x50_S50x128_S16000x128_1_0_0_1_n_n.rhsIdx i q 0).val = (q ⟨0, by decide⟩).val :=
  dot_S16000x50_S50x128_S16000x128_1_0_0_1_n_n.rhsIdx_val_of_single rfl i q
theorem rhs_dot_1 (i : S16000x128.Idx) (q : dot_S16000x50_S50x128_S16000x128_1_0_0_1_n_n.contr.Idx) :
    (dot_S16000x50_S50x128_S16000x128_1_0_0_1_n_n.rhsIdx i q 1).val = (i 1).val := by
  unfold DotDims.rhsIdx
  rw [dif_neg (show ¬(1 : Fin S50x128.rank) ∈ dot_S16000x50_S50x128_S16000x128_1_0_0_1_n_n.rhsBatch by decide), dif_pos (show (1 : Fin S50x128.rank) ∈ dot_S16000x50_S50x128_S16000x128_1_0_0_1_n_n.rhsNonContracting by decide)]
  rfl

/-- The block product into a zero accumulator at `(p, h)`: the sum over the 50 centres of left row `p` times right column `h`. -/
theorem matmul_apply (l : FVec Ideal S16000x50 .f32) (r : FVec Ideal S50x128 .f32) (p : Fin 16000) (h : Fin 128) :
    matmul dot_S16000x50_S50x128_S16000x128_1_0_0_1_n_n none l r (constant S16000x128 .f32 0x00000000#32) (ix2 p h)
      = ∑ j : Fin 50, l (ix2 p j) * r (ix2 j h) := by
  simp only [matmul]
  rw [Ideal.matmul_constant_zero_apply, ← Equiv.sum_comp (ValueIdx.contrEquiv1 dot_S16000x50_S50x128_S16000x128_1_0_0_1_n_n 50 rfl rfl).symm]
  refine Finset.sum_congr rfl fun k _ => ?_
  have hk := ValueIdx.contrEquiv1_symm_val dot_S16000x50_S50x128_S16000x128_1_0_0_1_n_n 50 rfl rfl k
  have el : dot_S16000x50_S50x128_S16000x128_1_0_0_1_n_n.lhsIdx (ix2 p h) ((ValueIdx.contrEquiv1 dot_S16000x50_S50x128_S16000x128_1_0_0_1_n_n 50 rfl rfl).symm k) = ix2 p k := funext fun a => Fin.ext (by
    match a with
    | ⟨0, _⟩ => exact lhs_dot_0 _ _
    | ⟨1, _⟩ => exact (lhs_dot_1 _ _).trans hk)
  have er : dot_S16000x50_S50x128_S16000x128_1_0_0_1_n_n.rhsIdx (ix2 p h) ((ValueIdx.contrEquiv1 dot_S16000x50_S50x128_S16000x128_1_0_0_1_n_n 50 rfl rfl).symm k) = ix2 k h := funext fun a => Fin.ext (by
    match a with
    | ⟨0, _⟩ => exact (rhs_dot_0 _ _).trans hk
    | ⟨1, _⟩ => exact rhs_dot_1 _ _)
  rw [el, er]

/-- The stored attribute at row `p`, channel `h`. -/
theorem pay1_apply (l : FVec Ideal S16000x50 .f32) (r : FVec Ideal S50x128 .f32) (bias : FVec Ideal S1x128 .f32) (p : Fin 16000) (h : Fin 128) :
    k0_pay1 (F := Ideal) l r bias (ix2 p h) = (∑ j : Fin 50, l (ix2 p j) * r (ix2 j h)) + bias (ix2 (0 : Fin 1) h) := by
  unfold k0_pay1
  rw [addf_apply, matmul_apply, broadcastTo_1b_ab_apply, shapeCast_self]

/-- The stored attribute at row `p`, channel `h`, from the loaded blocks. -/
theorem attr_apply (x0 : FVec Ideal S16000x3 .f32) (x1 x2 : FVec Ideal S1x50 .f32) (x3 : FVec Ideal S50x128 .f32) (x4 : FVec Ideal S1x128 .f32)
    (p : Fin 16000) (h : Fin 128) :
    k0_pay1 (F := Ideal) (k0_pay5 x0 x1 x2) (k0_pay6 x3) x4 (ix2 p h)
      = (∑ j : Fin 50, radial (rowLen x0 p) (x1 (ix2 (0 : Fin 1) j)) (x2 (ix2 (0 : Fin 1) j)) * x3 (ix2 j h)) + x4 (ix2 (0 : Fin 1) h) := by
  rw [pay1_apply]
  refine congrArg (· + x4 (ix2 (0 : Fin 1) h)) (Finset.sum_congr rfl fun j _ => ?_)
  rw [pay5_apply]
  unfold k0_pay6
  rw [shapeCast_self]

end Cert.KernelIdeal.Rows

end
-- ==== Proof.KernelValue.lean ====
/-
  What the pipelined region leaves in its three output arrays, as whole-array functions of the arrays it was launched on.

  The grid has 100 points; point `t` handles the 16000 edges `t·16000 … t·16000 + 15999`: every input and output block of
  point `t` on the edge axis sits at block index `t`, and the four small operands (centres, widths, weights, bias) are
  whole blocks at index 0. So row `p` of a block at point `t` is edge `t·16000 + p` of the array, the body's per-row results
  are the per-edge functions of EdgeSpec at that edge, and since the 100 blocks tile the edge axis every entry of each
  output array is covered: the arrays end as those functions, everywhere. The program's last operation views the
  one-column length matrix as a vector.
-/
import proofs.«111235_j15607911153855_1_alg».proof.Proof.Gen.KernelIdeal.Frame
import proofs.«111235_j15607911153855_1_alg».proof.Proof.KernelRows
import Idealize.ShloMosaic.Lib.Pipeline.Value
import Idealize.ShloMosaic.Lib.StableHlo.Run

noncomputable section

namespace Cert.KernelIdeal.EdgeValue

open Cert.KernelIdeal Cert.KernelIdeal.Gen Cert.KernelIdeal.Rows Idealize.ShloMosaic Idealize.ShloMosaic.TcCoe Idealize.SL.Sem
open Idealize.ShloMosaic.ValueIdx EdgeFeat
open Idealize.ShloMosaic.Pipeline (Dat)

variable (m : (ℓ : Loc nD τ sig) → Buf (Elt Ideal) ℓ) (ρ : Dev nD → PrngReg)

/-! ## The arrays the region is launched on, and the blocks a point loads, at their literal types -/

abbrev evArr (c : Dev nD) : FVec Ideal S1600000x3 .f32 := V m c main_call0_v18
abbrev meansRow (c : Dev nD) : FVec Ideal S1x50 .f32 := V m c main_call0_v19
abbrev betasRow (c : Dev nD) : FVec Ideal S1x50 .f32 := V m c main_call0_v20
abbrev wtMat (c : Dev nD) : FVec Ideal S50x128 .f32 := V m c main_call0_v21
abbrev biasRow (c : Dev nD) : FVec Ideal S1x128 .f32 := V m c main_call0_v22

abbrev evBlk (c : Dev nD) (t : Fin cfg0.N) : FVec Ideal S16000x3 .f32 := iblk m c 0 t
abbrev meansBlk (c : Dev nD) (t : Fin cfg0.N) : FVec Ideal S1x50 .f32 := iblk m c 1 t
abbrev betasBlk (c : Dev nD) (t : Fin cfg0.N) : FVec Ideal S1x50 .f32 := iblk m c 2 t
abbrev wtBlk (c : Dev nD) (t : Fin cfg0.N) : FVec Ideal S50x128 .f32 := iblk m c 3 t
abbrev biasBlk (c : Dev nD) (t : Fin cfg0.N) : FVec Ideal S1x128 .f32 := iblk m c 4 t

theorem hz : (![0, 0] : Fin 2 → Nat) = fun _ => 0 := funext fun a => by fin_cases a <;> rfl

/-- The printed index maps over the grid: the edge-axis windows sit at block `t`, the small operands at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The edge that row `p` of point `t`'s blocks is. -/
def edgeOf (t : Fin cfg0.N) (p : Fin 16000) : Fin 1600000 :=
  ⟨t.val * 16000 + p.val, by have ht : t.val < 100 := t.isLt; have := p.isLt; omega⟩

/-- Row `p` of the displacement block at point `t` is edge `edgeOf t p` of the displacement array. -/
theorem evBlk_apply (c : Dev nD) (t : Fin cfg0.N) (p : Fin 16000) (k : Fin 3) :
    evBlk m c t (ix2 p k) = evArr m c (ix2 (edgeOf t p) k) := by
  show V m c main_call0_v18 (((cfg0.win 0).blk t).view.emb (ix2 p k)) = V m c main_call0_v18 (ix2 (edgeOf t p) k)
  refine congrArg (V m c main_call0_v18) (funext fun a => Fin.ext ?_)
  obtain ⟨e00, e01, -⟩ := idx_facts t
  match a with
  | ⟨0, _⟩ => show win0_0.index t (0 : Fin 2) * 16000 + 1 * p.val = t.val * 16000 + p.val; omega
  | ⟨1, _⟩ => show win0_0.index t (1 : Fin 2) * 3 + 1 * k.val = k.val; omega

/-- The centres' block at any point is the whole row of centres. -/
theorem meansBlk_apply (c : Dev nD) (t : Fin cfg0.N) (u : Fin 1) (j : Fin 50) :
    meansBlk m c t (ix2 u j) = meansRow m c (ix2 u j) := by
  show V m c main_call0_v19 (((cfg0.win 1).blk t).view.emb (ix2 u j)) = V m c main_call0_v19 (ix2 u j)
  refine congrArg (V m c main_call0_v19) (funext fun a => Fin.ext ?_)
  obtain ⟨-, -, e10, e11, -⟩ := idx_facts t
  match a with
  | ⟨0, _⟩ => show win0_1.index t (0 : Fin 2) * 1 + 1 * u.val = u.val; omega
  | ⟨1, _⟩ => show win0_1.index t (1 : Fin 2) * 50 + 1 * j.val = j.val; omega

/-- The widths' block at any point is the whole row of widths. -/
theorem betasBlk_apply (c : Dev nD) (t : Fin cfg0.N) (u : Fin 1) (j : Fin 50) :
    betasBlk m c t (ix2 u j) = betasRow m c (ix2 u j) := by
  show V m c main_call0_v20 (((cfg0.win 2).blk t).view.emb (ix2 u j)) = V m c main_call0_v20 (ix2 u j)
  refine congrArg (V m c main_call0_v20) (funext fun a => Fin.ext ?_)
  obtain ⟨-, -, -, -, e20, e21, -⟩ := idx_facts t
  match a with
  | ⟨0, _⟩ => show win0_2.index t (0 : Fin 2) * 1 + 1 * u.val = u.val; omega
  | ⟨1, _⟩ => show win0_2.index t (1 : Fin 2) * 50 + 1 * j.val = j.val; omega

/-- The weights' block at any point is the whole weight matrix. -/
theorem wtBlk_apply (c : Dev nD) (t : Fin cfg0.N) (j : Fin 50) (h : Fin 128) :
    wtBlk m c t (ix2 j h) = wtMat m c (ix2 j h) := by
  show V m c main_call0_v21 (((cfg0.win 3).blk t).view.emb (ix2 j h)) = V m c main_call0_v21 (ix2 j h)
  refine congrArg (V m c main_call0_v21) (funext fun a => Fin.ext ?_)
  obtain ⟨-, -, -, -, -, -, e30, e31, -⟩ := idx_facts t
  match a with
  | ⟨0, _⟩ => show win0_3.index t (0 : Fin 2) * 50 + 1 * j.val = j.val; omega
  | ⟨1, _⟩ => show win0_3.index t (1 : Fin 2) * 128 + 1 * h.val = h.val; omega

/-- The bias block at any point is the whole bias row. -/
theorem biasBlk_apply (c : Dev nD) (t : Fin cfg0.N) (u : Fin 1) (h : Fin 128) :
    biasBlk m c t (ix2 u h) = biasRow m c (ix2 u h) := by
  show V m c main_call0_v22 (((cfg0.win 4).blk t).view.emb (ix2 u h)) = V m c main_call0_v22 (ix2 u h)
  refine congrArg (V m c main_call0_v22) (funext fun a => Fin.ext ?_)
  obtain ⟨-, -, -, -, -, -, -, -, e40, e41, -⟩ := idx_facts t
  match a with
  | ⟨0, _⟩ => show win0_4.index t (0 : Fin 2) * 1 + 1 * u.val = u.val; omega
  | ⟨1, _⟩ => show win0_4.index t (1 : Fin 2) * 128 + 1 * h.val = h.val; omega

/-- The length of row `p` of point `t`'s block is the length of edge `edgeOf t p`. -/
theorem rowLen_blk (c : Dev nD) (t : Fin cfg0.N) (p : Fin 16000) :
    rowLen (evBlk m c t) p = edgeLen (evArr m c) (edgeOf t p) :=
  congrArg norm3 (funext fun k => evBlk_apply m c t p k)

/-! ## Where a row of an output block sits in its array -/

theorem emb5 (t : Fin cfg0.N) (p : Fin 16000) (u : Fin 1) :
    ((cfg0.win 5).blk t).view.emb (ix2 p u) = ix2 (edgeOf t p) u := by
  refine funext fun a => Fin.ext ?_
  obtain ⟨-, -, -, -, -, -, -, -, -, -, e50, e51, -⟩ := idx_facts t
  match a with
  | ⟨0, _⟩ => show win0_5.index t (0 : Fin 2) * 16000 + 1 * p.val = t.val * 16000 + p.val; omega
  | ⟨1, _⟩ => show win0_5.index t (1 : Fin 2) * 1 + 1 * u.val = u.val; omega

theorem emb6 (t : Fin cfg0.N) (p : Fin 16000) (h : Fin 128) :
    ((cfg0.win 6).blk t).view.emb (ix2 p h) = ix2 (edgeOf t p) h := by
  refine funext fun a => Fin.ext ?_
  obtain ⟨-, -, -, -, -, -, -, -, -, -, -, -, e60, e61, -⟩ := idx_facts t
  match a with
  | ⟨0, _⟩ => show win0_6.index t (0 : Fin 2) * 16000 + 1 * p.val = t.val * 16000 + p.val; omega
  | ⟨1, _⟩ => show win0_6.index t (1 : Fin 2) * 128 + 1 * h.val = h.val; omega

theorem emb7 (t : Fin cfg0.N) (p : Fin 16000) (k : Fin 3) :
    ((cfg0.win 7).blk t).view.emb (ix2 p k) = ix2 (edgeOf t p) k := by
  refine funext fun a => Fin.ext ?_
  obtain ⟨-, -, -, -, -, -, -, -, -, -, -, -, -, -, e70, e71⟩ := idx_facts t
  match a with
  | ⟨0, _⟩ => show win0_7.index t (0 : Fin 2) * 16000 + 1 * p.val = t.val * 16000 + p.val; omega
  | ⟨1, _⟩ => show win0_7.index t (1 : Fin 2) * 3 + 1 * k.val = k.val; omega

/-! ## What a point writes back is its block of the whole-array function -/

/-- The attributes over the launched arrays: the centres, widths and bias are one-row matrices there, the weights transposed. -/
def attrOf (c : Dev nD) : (⟨2, ![1600000, 128]⟩ : Shape).Idx → EReal :=
  fun i => (∑ j : Fin 50, radial (edgeLen (evArr m c) (i 0)) (meansRow m c (ix2 (0 : Fin 1) j)) (betasRow m c (ix2 (0 : Fin 1) j)) * wtMat m c (ix2 j (i 1)))
    + biasRow m c (ix2 (0 : Fin 1) (i 1))

theorem flushed5_eq (c : Dev nD) (t : Fin cfg0.N) :
    (dats m 0 c).flushed 5 t = ((cfg0.win 5).blk t).view.read (Elt Ideal) (lenCol (evArr m c)) := by
  show (cfg0.win 5).cut (grid0.coords t) ((dats m 0 c).after 5 t) = _
  rw [after0_5]
  unfold out0_5
  rw [View.canon_unit_zero hz]
  simp only [View.ld_unit_zero (S := S16000x3) hz]
  funext j
  obtain ⟨p, u, rfl⟩ : ∃ (p : Fin 16000) (u : Fin 1), j = ix2 p u := ⟨j 0, j 1, eq_ix2 j⟩
  show k0_pay4 (F := Ideal) (evBlk m c t) (ix2 p u) = lenCol (evArr m c) (((cfg0.win 5).blk t).view.emb (ix2 p u))
  rw [emb5, pay4_apply, rowLen_blk]
  rfl

theorem flushed7_eq (c : Dev nD) (t : Fin cfg0.N) :
    (dats m 0 c).flushed 7 t = ((cfg0.win 7).blk t).view.read (Elt Ideal) (unitMat (evArr m c)) := by
  show (cfg0.win 7).cut (grid0.coords t) ((dats m 0 c).after 7 t) = _
  rw [after0_7]
  unfold out0_7
  rw [View.canon_unit_zero hz]
  simp only [View.ld_unit_zero (S := S16000x3) hz]
  funext j
  obtain ⟨p, k, rfl⟩ : ∃ (p : Fin 16000) (k : Fin 3), j = ix2 p k := ⟨j 0, j 1, eq_ix2 j⟩
  show k0_pay2 (F := Ideal) (k0_pay3 (evBlk m c t)) (k0_pay4 (evBlk m c t)) (ix2 p k) = unitMat (evArr m c) (((cfg0.win 7).blk t).view.emb (ix2 p k))
  rw [emb7, pay2_apply, rowLen_blk, evBlk_apply]
  rfl

theorem flushed6_eq (c : Dev nD) (t : Fin cfg0.N) :
    (dats m 0 c).flushed 6 t = ((cfg0.win 6).blk t).view.read (Elt Ideal) (attrOf m c) := by
  show (cfg0.win 6).cut (grid0.coords t) ((dats m 0 c).after 6 t) = _
  rw [after0_6]
  unfold out0_6
  rw [View.canon_unit_zero hz]
  simp only [View.ld_unit_zero (S := S16000x3) hz, View.ld_unit_zero (S := S1x50) hz, View.ld_unit_zero (S := S50x128) hz, View.ld_unit_zero (S := S1x128) hz]
  funext j
  obtain ⟨p, h, rfl⟩ : ∃ (p : Fin 16000) (h : Fin 128), j = ix2 p h := ⟨j 0, j 1, eq_ix2 j⟩
  show k0_pay1 (F := Ideal) (k0_pay5 (evBlk m c t) (meansBlk m c t) (betasBlk m c t)) (k0_pay6 (wtBlk m c t)) (biasBlk m c t) (ix2 p h)
    = attrOf m c (((cfg0.win 6).blk t).view.emb (ix2 p h))
  rw [emb6, attr_apply, rowLen_blk, biasBlk_apply]
  unfold attrOf
  refine congrArg (· + biasRow m c (ix2 (0 : Fin 1) h)) (Finset.sum_congr rfl fun j _ => ?_)
  rw [meansBlk_apply, betasBlk_apply, wtBlk_apply]

/-! ## Every entry of each output array lies in some point's block -/

theorem mem_blk5 (t : Fin cfg0.N) (i : S1600000x1.Idx) :
    i ∈ ((cfg0.win 5).blk t).view.set ↔ ∀ a : Fin 2, win0_5.index t a * S16000x1.size a ≤ (i a).val ∧ (i a).val < win0_5.index t a * S16000x1.size a + S16000x1.size a := by
  show i ∈ ((View.whole main_call0_v23_0).slice (win0_5.rect t)).set ↔ _
  rw [View.set_slice_whole, Rect.mem_set_unit]
  exact Iff.rfl

/-- Edge `e` is handled at point `e / 16000`. -/
theorem cover5 (i : S1600000x1.Idx) : ∃ t : Fin cfg0.N, (cfg0.win 5).flush t = true ∧ i ∈ ((cfg0.win 5).blk t).view.set := by
  have hi0 : (i 0).val < 1600000 := (i 0).isLt
  have hi1 : (i 1).val < 1 := (i 1).isLt
  have ht : (i 0).val / 16000 < 100 := by omega
  obtain ⟨t, htt⟩ : ∃ t : Fin cfg0.N, t.val = (i 0).val / 16000 := ⟨⟨_, ht⟩, rfl⟩
  refine ⟨t, flush0_5 t, ?_⟩
  rw [mem_blk5]
  obtain ⟨-, -, -, -, -, -, -, -, -, -, e0, e1, -⟩ := idx_facts t
  intro a
  match a with
  | ⟨0, _⟩ => show win0_5.index t (0 : Fin 2) * 16000 ≤ (i 0).val ∧ (i 0).val < win0_5.index t (0 : Fin 2) * 16000 + 16000; omega
  | ⟨1, _⟩ => show win0_5.index t (1 : Fin 2) * 1 ≤ (i 1).val ∧ (i 1).val < win0_5.index t (1 : Fin 2) * 1 + 1; omega

theorem mem_blk6 (t : Fin cfg0.N) (i : S1600000x128.Idx) :
    i ∈ ((cfg0.win 6).blk t).view.set ↔ ∀ a : Fin 2, win0_6.index t a * S16000x128.size a ≤ (i a).val ∧ (i a).val < win0_6.index t a * S16000x128.size a + S16000x128.size a := by
  show i ∈ ((View.whole main_v0_2).slice (win0_6.rect t)).set ↔ _
  rw [View.set_slice_whole, Rect.mem_set_unit]
  exact Iff.rfl

/-- Edge `e` is handled at point `e / 16000`. -/
theorem cover6 (i : S1600000x128.Idx) : ∃ t : Fin cfg0.N, (cfg0.win 6).flush t = true ∧ i ∈ ((cfg0.win 6).blk t).view.set := by
  have hi0 : (i 0).val < 1600000 := (i 0).isLt
  have hi1 : (i 1).val < 128 := (i 1).isLt
  have ht : (i 0).val / 16000 < 100 := by omega
  obtain ⟨t, htt⟩ : ∃ t : Fin cfg0.N, t.val = (i 0).val / 16000 := ⟨⟨_, ht⟩, rfl⟩
  refine ⟨t, flush0_6 t, ?_⟩
  rw [mem_blk6]
  obtain ⟨-, -, -, -, -, -, -, -, -, -, -, -, e0, e1, -⟩ := idx_facts t
  intro a
  match a with
  | ⟨0, _⟩ => show win0_6.index t (0 : Fin 2) * 16000 ≤ (i 0).val ∧ (i 0).val < win0_6.index t (0 : Fin 2) * 16000 + 16000; omega
  | ⟨1, _⟩ => show win0_6.index t (1 : Fin 2) * 128 ≤ (i 1).val ∧ (i 1).val < win0_6.index t (1 : Fin 2) * 128 + 128; omega

theorem mem_blk7 (t : Fin cfg0.N) (i : S1600000x3.Idx) :
    i ∈ ((cfg0.win 7).blk t).view.set ↔ ∀ a : Fin 2, win0_7.index t a * S16000x3.size a ≤ (i a).val ∧ (i a).val < win0_7.index t a * S16000x3.size a + S16000x3.size a := by
  show i ∈ ((View.whole main_v0_3).slice (win0_7.rect t)).set ↔ _
  rw [View.set_slice_whole, Rect.mem_set_unit]
  exact Iff.rfl

/-- Edge `e` is handled at point `e / 16000`. -/
theorem cover7 (i : S1600000x3.Idx) : ∃ t : Fin cfg0.N, (cfg0.win 7).flush t = true ∧ i ∈ ((cfg0.win 7).blk t).view.set := by
  have hi0 : (i 0).val < 1600000 := (i 0).isLt
  have hi1 : (i 1).val < 3 := (i 1).isLt
  have ht : (i 0).val / 16000 < 100 := by omega
  obtain ⟨t, htt⟩ : ∃ t : Fin cfg0.N, t.val = (i 0).val / 16000 := ⟨⟨_, ht⟩, rfl⟩
  refine ⟨t, flush0_7 t, ?_⟩
  rw [mem_blk7]
  obtain ⟨-, -, -, -, -, -, -, -, -, -, -, -, -, -, e0, e1⟩ := idx_facts t
  intro a
  match a with
  | ⟨0, _⟩ => show win0_7.index t (0 : Fin 2) * 16000 ≤ (i 0).val ∧ (i 0).val < win0_7.index t (0 : Fin 2) * 16000 + 16000; omega
  | ⟨1, _⟩ => show win0_7.index t (1 : Fin 2) * 3 ≤ (i 1).val ∧ (i 1).val < win0_7.index t (1 : Fin 2) * 3 + 3; omega

/-! ## The arrays after the run -/

theorem final5 (c : Dev nD) : (dats m 0 c).arrAt 5 cfg0.N = lenCol (evArr m c) :=
  (dats m 0 c).arrAt_eq_of_cover 5 (lenCol (evArr m c)) (fun t _ => flushed5_eq m c t) cover5

theorem final6 (c : Dev nD) : (dats m 0 c).arrAt 6 cfg0.N = attrOf m c :=
  (dats m 0 c).arrAt_eq_of_cover 6 (attrOf m c) (fun t _ => flushed6_eq m c t) cover6

theorem final7 (c : Dev nD) : (dats m 0 c).arrAt 7 cfg0.N = unitMat (evArr m c) :=
  (dats m 0 c).arrAt_eq_of_cover 7 (unitMat (evArr m c)) (fun t _ => flushed7_eq m c t) cover7

/-- The program's last operation: the one-column length matrix viewed as a vector. -/
theorem tail_len (c : Dev nD) :
    Pipeline.afterTail₀ cfgs (dats m) 0 (V0 m) [hostOps1] c main_v0_1 = lenVec (evArr m c) := by
  unfold Pipeline.afterTail₀
  show StableHlo.after hostOps1 _ (Proc.devRef .tc main_v0_1) = _
  after_results
  refine funext fun i => ?_
  obtain ⟨p, rfl⟩ : ∃ p : Fin 1600000, i = ix1 p := ⟨i 0, eq_ix1 i⟩
  show shapeCast S1600000 (Pipeline.withArrays spec0 c (V0 m c) (fun w => (dats m 0 c).arrAt w cfg0.N) (Proc.devRef .tc (Pipeline.arrRef spec0 5))) shapeCasts_S1600000x1_S1600000 (ix1 p) = _
  rw [Pipeline.withArrays_arr spec0 launch0.win.arr_inj c _ _ 5, final5, shapeCast_a1_a_apply]
  rfl

theorem meansRow_eq (c : Dev nD) : meansRow m c = shapeCast S1x50 (m ((c : Thread nD τ).loc main_arg2)) shapeCasts_S50_S1x50 := by
  show StableHlo.after hostOps0 (fun b => m (c, b)) (Proc.devRef .tc main_call0_v19) = _
  after_results
  rfl

theorem betasRow_eq (c : Dev nD) : betasRow m c = shapeCast S1x50 (m ((c : Thread nD τ).loc main_arg3)) shapeCasts_S50_S1x50 := by
  show StableHlo.after hostOps0 (fun b => m (c, b)) (Proc.devRef .tc main_call0_v20) = _
  after_results
  rfl

theorem wtMat_eq (c : Dev nD) : wtMat m c = transpose S50x128 [1, 0] (m ((c : Thread nD τ).loc main_arg4)) transposes_S128x50_S50x128_1_0 := by
  show StableHlo.after hostOps0 (fun b => m (c, b)) (Proc.devRef .tc main_call0_v21) = _
  after_results
  rfl

theorem biasRow_eq (c : Dev nD) : biasRow m c = shapeCast S1x128 (m ((c : Thread nD τ).loc main_arg5)) shapeCasts_S128_S1x128 := by
  show StableHlo.after hostOps0 (fun b => m (c, b)) (Proc.devRef .tc main_call0_v22) = _
  after_results
  rfl

/-- The one-row matrix of centres at `(0, j)` is centre `j`. -/
theorem meansRow_apply (c : Dev nD) (u : Fin 1) (j : Fin 50) :
    meansRow m c (ix2 u j) = m ((c : Thread nD τ).loc main_arg2) (ix1 j) := by
  rw [meansRow_eq]; exact shapeCast_a_1a_apply _ _ u j

theorem betasRow_apply (c : Dev nD) (u : Fin 1) (j : Fin 50) :
    betasRow m c (ix2 u j) = m ((c : Thread nD τ).loc main_arg3) (ix1 j) := by
  rw [betasRow_eq]; exact shapeCast_a_1a_apply _ _ u j

/-- The transposed weights at `(j, h)` are the weights at `(h, j)`. -/
theorem wtMat_apply (c : Dev nD) (j : Fin 50) (h : Fin 128) :
    wtMat m c (ix2 j h) = m ((c : Thread nD τ).loc main_arg4) (ix2 h j) := by
  rw [wtMat_eq]; exact transpose_ix2_apply _ _ j h

theorem biasRow_apply (c : Dev nD) (u : Fin 1) (h : Fin 128) :
    biasRow m c (ix2 u h) = m ((c : Thread nD τ).loc main_arg5) (ix1 h) := by
  rw [biasRow_eq]; exact shapeCast_a_1a_apply _ _ u h

/-- The attributes over the program's own arguments. -/
theorem attrOf_eq (c : Dev nD) :
    attrOf m c = attrMat (evArr m c) (m ((c : Thread nD τ).loc main_arg2)) (m ((c : Thread nD τ).loc main_arg3))
      (m ((c : Thread nD τ).loc main_arg4)) (m ((c : Thread nD τ).loc main_arg5)) := by
  funext i
  obtain ⟨e, h, rfl⟩ : ∃ (e : Fin 1600000) (h : Fin 128), i = ix2 e h := ⟨i 0, i 1, eq_ix2 i⟩
  unfold attrOf attrMat
  show (∑ j : Fin 50, radial (edgeLen (evArr m c) e) (meansRow m c (ix2 (0 : Fin 1) j)) (betasRow m c (ix2 (0 : Fin 1) j)) * wtMat m c (ix2 j h)) + biasRow m c (ix2 (0 : Fin 1) h)
    = (∑ j : Fin 50, radial (edgeLen (evArr m c) e) (m ((c : Thread nD τ).loc main_arg2) (ix1 j)) (m ((c : Thread nD τ).loc main_arg3) (ix1 j)) * m ((c : Thread nD τ).loc main_arg4) (ix2 h j)) + m ((c : Thread nD τ).loc main_arg5) (ix1 h)
  rw [biasRow_apply]
  refine congrArg (· + m ((c : Thread nD τ).loc main_arg5) (ix1 h)) (Finset.sum_congr rfl fun j _ => ?_)
  rw [meansRow_apply, betasRow_apply, wtMat_apply]

/-! ## The run, read -/

/-- Every weakly fair execution ends with the edge index untouched, the lengths, the attributes and the unit directions
    as the per-edge functions of the displacement array the program computed before the region, and the arguments unchanged. -/
theorem run : θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v0_1) = lenVec (evArr m c)
      ∧ r.2.mem ((c.tc : Thread nD τ).loc main_v0_2) = attrMat (evArr m c) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v0_3) = unitMat (evArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_arg1 (Pipeline.mem_restRefs_of main_arg1 (by decide) (by decide))).trans (W_main_arg1 m (dats m) c),
      ((h c).2 main_v0_1 (Pipeline.mem_restRefs_of main_v0_1 (by decide) (by decide))).trans (tail_len m c),
      (((h c).1 6).trans (final6 m c)).trans (attrOf_eq m c),
      ((h c).1 7).trans (final7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.EdgeValue

end
-- ==== Proof.RefValue.lean ====
/-
  The reference program's results as the per-edge functions of EdgeSpec: its length vector, its attributes and its unit
  directions, each read off its operations one at a time, are the length, the radial values through the linear layer, and
  the displacement over its length, of the displacement array it computes first (the gather of positions at the two
  endpoints, subtracted), which is kept whole here and never opened.
-/
import proofs.«111235_j15607911153855_1_alg».proof.Proof.Gen.ReferenceIdeal.Read
import proofs.«111235_j15607911153855_1_alg».proof.Proof.EdgeSpec
import proofs.«111235_j15607911153855_1_alg».proof.Proof.EdgeLayout

noncomputable section

namespace Cert.ReferenceIdeal.EdgeRef

open Cert.ReferenceIdeal Cert.ReferenceIdeal.Read Idealize.ShloMosaic Idealize.ShloMosaic.ValueIdx EdgeFeat

variable (x0 : (⟨S100000x3, .f32⟩ : BufTy).Contents (Elt Ideal)) (x1 : (⟨S2x1600000, .i32⟩ : BufTy).Contents (Elt Ideal))

/-- The reference's displacement array. -/
abbrev evRef : FVec Ideal S1600000x3 .f32 := val_main_v18 (F := Ideal) x0 x1

/-! ## Read's composed index maps, at coordinates -/

theorem idx_sum (e : Fin 1600000) (k : Fin 3) : idx_main_call0_v1 (ix1 e) k = ix2 e k :=
  funext fun a => Fin.ext (by match a with | ⟨0, _⟩ => rfl | ⟨1, _⟩ => rfl)
theorem idx_sum' (e : Fin 1600000) (k : Fin 3) : idx_main_call1_v1 (ix1 e) k = ix2 e k :=
  funext fun a => Fin.ext (by match a with | ⟨0, _⟩ => rfl | ⟨1, _⟩ => rfl)
theorem idx_col (e : Fin 1600000) (u : Fin 1) : idx_main_v20 (ix2 e u) = ix1 e :=
  funext fun a => Fin.ext (by match a with | ⟨0, _⟩ => rfl)
theorem idx_col' (e : Fin 1600000) (u : Fin 1) : idx_main_call1_v2 (ix2 e u) = ix1 e :=
  funext fun a => Fin.ext (by match a with | ⟨0, _⟩ => rfl)

/-! ## The lengths -/

/-- The reference's length vector. -/
theorem len_ref : val_main_v19 (F := Ideal) x0 x1 = lenVec (evRef x0 x1) := by
  funext i
  obtain ⟨e, rfl⟩ : ∃ e : Fin 1600000, i = ix1 e := ⟨i 0, eq_ix1 i⟩
  rw [val_main_v19_apply, val_main_call0_v1_apply]
  simp only [val_main_call0_v0_apply, val_main_call0_cst_apply, idx_sum]
  rw [Ideal.hostUnary_sqrt_def, Ideal.ofBits_def, Ideal.ofBits_zero_f32, zero_add]
  rfl

/-- The same lengths, broadcast to a one-column matrix (the reference's `d`). -/
theorem lenCol_ref (e : Fin 1600000) (u : Fin 1) : val_main_v20 (F := Ideal) x0 x1 (ix2 e u) = edgeLen (evRef x0 x1) e := by
  rw [val_main_v20_apply, idx_col, len_ref]
  rfl

/-- The reference's second norm (keepdims): the same lengths as a one-column matrix. -/
theorem lenCol_ref' (e : Fin 1600000) (u : Fin 1) : val_main_v51 (F := Ideal) x0 x1 (ix2 e u) = edgeLen (evRef x0 x1) e := by
  rw [val_main_v51_apply, val_main_call1_v2_apply, idx_col', val_main_call1_v1_apply]
  simp only [val_main_call1_v0_apply, val_main_call1_cst_apply, idx_sum']
  rw [Ideal.hostUnary_sqrt_def, Ideal.ofBits_def, Ideal.ofBits_zero_f32, zero_add]
  rfl

/-! ## The unit directions -/

theorem idx_row3 (e : Fin 1600000) (k : Fin 3) : idx_main_v52 (ix2 e k) = ix2 e (0 : Fin 1) :=
  funext fun a => Fin.ext (by match a with | ⟨0, _⟩ => rfl | ⟨1, _⟩ => rfl)

theorem unit_ref : val_main_v53 (F := Ideal) x0 x1 = unitMat (evRef x0 x1) := by
  funext i
  obtain ⟨e, k, rfl⟩ : ∃ (e : Fin 1600000) (k : Fin 3), i = ix2 e k := ⟨i 0, i 1, eq_ix2 i⟩
  rw [val_main_v53_apply, val_main_v52_apply, idx_row3, lenCol_ref']
  rfl

/-! ## The cutoff and the decay of an edge -/

theorem cutoff_ref (e : Fin 1600000) (u : Fin 1) : val_main_v33 (F := Ideal) x0 x1 (ix2 e u) = cutoff (edgeLen (evRef x0 x1) e) := by
  rw [val_main_v33_apply, val_main_v29_apply, val_main_v32_apply, val_main_v31_apply, val_main_v28_apply, val_main_v27_apply, val_main_v25_apply,
    val_main_v24_apply, val_main_v22_apply, val_main_v21_apply, val_main_v23_apply, val_main_v26_apply, val_main_v30_apply,
    val_main_cst_apply, val_main_cst_3_apply, val_main_cst_4_apply, val_main_cst_5_apply, val_main_cst_6_apply, lenCol_ref]
  rfl

theorem decay_ref (e : Fin 1600000) (u : Fin 1) : val_main_v39 (F := Ideal) x0 x1 (ix2 e u) = decay (edgeLen (evRef x0 x1) e) := by
  rw [val_main_v39_apply, val_main_v38_apply, val_main_v37_apply, val_main_v36_apply, val_main_v35_apply, val_main_cst_7_apply, val_main_cst_8_apply, lenCol_ref]
  rfl

/-! ## The radial values and the attributes -/

theorem idx_col50 (e : Fin 1600000) (j : Fin 50) : idx_main_v49 (ix2 e j) = ix2 e (0 : Fin 1) :=
  funext fun a => Fin.ext (by match a with | ⟨0, _⟩ => rfl | ⟨1, _⟩ => rfl)
theorem idx_col50' (e : Fin 1600000) (j : Fin 50) : idx_main_v41 (ix2 e j) = ix2 e (0 : Fin 1) :=
  funext fun a => Fin.ext (by match a with | ⟨0, _⟩ => rfl | ⟨1, _⟩ => rfl)
theorem idx_means (e : Fin 1600000) (j : Fin 50) : idx_main_v40 (idx_main_v42 (ix2 e j)) = ix1 j :=
  funext fun a => Fin.ext (by match a with | ⟨0, _⟩ => rfl)
theorem idx_betas (e : Fin 1600000) (j : Fin 50) : idx_main_v45 (idx_main_v46 (ix2 e j)) = ix1 j :=
  funext fun a => Fin.ext (by match a with | ⟨0, _⟩ => rfl)

variable (x2 x3 : (⟨S50, .f32⟩ : BufTy).Contents (Elt Ideal)) (x4 : (⟨S128x50, .f32⟩ : BufTy).Contents (Elt Ideal)) (x5 : (⟨S128, .f32⟩ : BufTy).Contents (Elt Ideal))

theorem radial_ref (e : Fin 1600000) (j : Fin 50) :
    val_main_v50 (F := Ideal) x0 x1 x2 x3 (ix2 e j) = radial (edgeLen (evRef x0 x1) e) (x2 (ix1 j)) (x3 (ix1 j)) := by
  rw [val_main_v50_apply, val_main_v49_apply, idx_col50, cutoff_ref, val_main_v48_apply, val_main_v47_apply, val_main_v46_apply, val_main_v45_apply, idx_betas,
    val_main_v34_apply, val_main_v44_apply, val_main_v43_apply, val_main_v41_apply, idx_col50', decay_ref, val_main_v42_apply, val_main_v40_apply, idx_means]
  rfl

theorem idx_lhs (e : Fin 1600000) (h : Fin 128) (j : Fin 50) : lidx_main_v55 (ix2 e h) j = ix2 e j :=
  funext fun a => Fin.ext (by match a with | ⟨0, _⟩ => rfl | ⟨1, _⟩ => rfl)
theorem idx_rhs (e : Fin 1600000) (h : Fin 128) (j : Fin 50) : idx_main_v54 (ridx_main_v55 (ix2 e h) j) = ix2 h j :=
  funext fun a => Fin.ext (by match a with | ⟨0, _⟩ => rfl | ⟨1, _⟩ => rfl)
theorem idx_bias (e : Fin 1600000) (h : Fin 128) : idx_main_v56 (idx_main_v57 (ix2 e h)) = ix1 h :=
  funext fun a => Fin.ext (by match a with | ⟨0, _⟩ => rfl)

theorem attr_ref : val_main_v58 (F := Ideal) x0 x1 x2 x3 x4 x5 = attrMat (evRef x0 x1) x2 x3 x4 x5 := by
  funext i
  obtain ⟨e, h, rfl⟩ : ∃ (e : Fin 1600000) (h : Fin 128), i = ix2 e h := ⟨i 0, i 1, eq_ix2 i⟩
  rw [val_main_v58_apply, val_main_v55_apply, val_main_v57_apply, val_main_v56_apply, idx_bias]
  unfold attrMat
  refine congrArg (· + x5 (ix1 h)) (Finset.sum_congr rfl fun j _ => ?_)
  rw [idx_lhs, radial_ref, val_main_v54_apply, idx_rhs]

end Cert.ReferenceIdeal.EdgeRef

end
-- ==== Proof.Bridge.lean ====
/-
  The two programs compute the same displacement array before anything else — the positions gathered at the two endpoints
  of each edge (a negative endpoint index wrapped by the number of nodes), subtracted — by the same operations in the same
  order; so the kernel's launched array is the reference's, and the per-edge functions of EdgeSpec applied to it are both
  programs' results.
-/
import proofs.«111235_j15607911153855_1_alg».proof.Defs
import proofs.«111235_j15607911153855_1_alg».proof.Proof.Gen.Pre_finite_inputs
import proofs.«111235_j15607911153855_1_alg».proof.Proof.KernelValue
import proofs.«111235_j15607911153855_1_alg».proof.Proof.RefValue

noncomputable section

namespace Cert.Proof.EdgeBridge

open Idealize.ShloMosaic Idealize.ShloMosaic.TcCoe Idealize.SL.Sem EdgeFeat

set_option maxHeartbeats 4000000 in
/-- The displacement array the kernel's region is launched on is the reference's, of the same positions and edge index. -/
theorem evArr_eq (m : (ℓ : Loc Cert.KernelIdeal.nD Cert.KernelIdeal.τ Cert.KernelIdeal.sig) → Buf (Elt Ideal) ℓ) (c : Dev Cert.KernelIdeal.nD) :
    Cert.KernelIdeal.EdgeValue.evArr m c
      = Cert.ReferenceIdeal.EdgeRef.evRef (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_call0_v18) = _
  after_results_simp
  rfl

/-! ## The claims -/

open Cert.KernelIdeal.EdgeValue Cert.ReferenceIdeal.EdgeRef

/-- From memories that agree on the arguments both programs end with the edge index, the lengths, the attributes and the
    unit directions of one and the same displacement array: equal results. No finiteness is used: the two programs differ
    only in how the one-bit cutoff indicator is read and in how the exponent's product is bracketed. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => lenVec (evArr m c),
    fun c => attrMat (evArr m c) (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => unitMat (evArr m c), Cert.KernelIdeal.EdgeValue.run m ρ, ?_⟩
  refine (θ_run Cert.ReferenceIdeal.defs _ _).mono (fun r h c => ?_) (Cert.ReferenceIdeal.Value.run (F := Ideal) m' ρ')
  obtain ⟨h1, h19, h58, h53, hargs⟩ := h c
  obtain ⟨a0, a1, a2, a3, a4, a5⟩ := hagree c
  refine ⟨h1.trans a1, ?_, ?_, ?_, hargs⟩
  · rw [h19, Cert.ReferenceIdeal.Read.val_main_v19_eq, len_ref, a0, a1, ← evArr_eq]
  · rw [h58, Cert.ReferenceIdeal.Read.val_main_v58_eq, attr_ref, a0, a1, a2, a3, a4, a5, ← evArr_eq]
  · rw [h53, Cert.ReferenceIdeal.Read.val_main_v53_eq, unit_ref, a0, a1, ← evArr_eq]

end Cert.Proof.EdgeBridge

end
-- ==== Proof.lean ====
/-
  Edge features of a graph: for each of 1,600,000 edges the displacement between its endpoints' positions, its Euclidean
  length d, the unit direction (displacement / d), and 128 attributes Σ_j ρ_j(d) · W_{h j} + b_h, where the 50 radial values
  are ρ_j(d) = ½ (cos(d π / 5) + 1) [d < 5] · exp(−β_j (e^{−d} − μ_j)²).

  The kernel gathers and subtracts the positions on the host, then computes lengths, attributes and directions in a
  pipelined region of 100 points, 16000 edges each; the reference computes the same with whole-array operations. On the
  extended reals both are the same per-edge functions of the same displacement array: a sum of three squares and a sum
  of 50 products are sums whatever their grouping, the matrix unit's product into a zero accumulator is the host's
  contraction, the cutoff's indicator bit is 0 or 1 however it is widened, and ((0 − β) · y) · y = −β · (y · y) by
  associativity. No input needs to be finite for this. The ideal pass rewrote nothing, so the idealized kernel is the
  kernel's own text and `preserves` is trivial. The three frames are the generated ones (the reference's frame is its run
  with the results dropped).
-/
import proofs.«111235_j15607911153855_1_alg».proof.Defs
import proofs.«111235_j15607911153855_1_alg».proof.Proof.Gen.Kernel
import proofs.«111235_j15607911153855_1_alg».proof.Proof.Gen.Kernel.Skeleton
import proofs.«111235_j15607911153855_1_alg».proof.Proof.Gen.Kernel.Launch
import proofs.«111235_j15607911153855_1_alg».proof.Proof.Gen.Kernel.Points
import proofs.«111235_j15607911153855_1_alg».proof.Proof.Gen.Kernel.Frame
import proofs.«111235_j15607911153855_1_alg».proof.Proof.Gen.KernelIdeal
import proofs.«111235_j15607911153855_1_alg».proof.Proof.Gen.KernelIdeal.Skeleton
import proofs.«111235_j15607911153855_1_alg».proof.Proof.Gen.KernelIdeal.Launch
import proofs.«111235_j15607911153855_1_alg».proof.Proof.Gen.KernelIdeal.Points
import proofs.«111235_j15607911153855_1_alg».proof.Proof.Gen.KernelIdeal.Frame
import proofs.«111235_j15607911153855_1_alg».proof.Proof.Gen.ReferenceIdeal
import proofs.«111235_j15607911153855_1_alg».proof.Proof.Gen.Pre_finite_inputs
import proofs.«111235_j15607911153855_1_alg».proof.Proof.Gen.ReferenceIdeal.Run
import proofs.«111235_j15607911153855_1_alg».proof.Proof.Gen.ReferenceIdeal.Read
import proofs.«111235_j15607911153855_1_alg».proof.Proof.Bridge
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with what it says of the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.EdgeBridge.algebraic⟩

end Cert.Proof

end
